-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x4096 .f32) (main_arg8 : FVec F S1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x4096 .f32) (main_arg6 : FVec F S1024 .f32) (main_arg7 : FVec F S1024x4096 .f32) (main_arg8 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x2048 .f32) (main_arg2 : FVec F S8192x1024 .f32) (main_arg3 : FVec F S1024x4096 .f32) (main_arg4 : FVec F S1024 .f32) (main_arg5 : FVec F S1024x4096 .f32) (main_arg6 : FVec F S1024 .f32) (main_arg7 : FVec F S1024x4096 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S8192x2048 : Shape := ⟨2, ![8192, 2048]⟩
abbrev S1024x4096 : Shape := ⟨2, ![1024, 4096]⟩
abbrev S1024 : Shape := ⟨1, ![1024]⟩
abbrev S4096x1024 : Shape := ⟨2, ![4096, 1024]⟩
abbrev S1x1024 : Shape := ⟨2, ![1, 1024]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 19
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S1024x4096, .f32⟩
  | .hbm, ⟨4, _⟩ => ⟨S1024, .f32⟩
  | .hbm, ⟨5, _⟩ => ⟨S1024x4096, .f32⟩
  | .hbm, ⟨6, _⟩ => ⟨S1024, .f32⟩
  | .hbm, ⟨7, _⟩ => ⟨S1024x4096, .f32⟩
  | .hbm, ⟨8, _⟩ => ⟨S1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x4096_S4096x1024_1_0 : S1024x4096.Transposes [1, 0] S4096x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  concatenates_S256x1024_S256x2048_S256x1024_S256x4096_d1 : Shape.Concatenates [S256x1024, S256x2048, S256x1024] S256x4096 1
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S1024x4096 : Shape := ⟨2, ![1024, 4096]⟩
abbrev S1024 : Shape := ⟨1, ![1024]⟩
abbrev S8192x4096 : Shape := ⟨2, ![8192, 4096]⟩
abbrev S3072x4096 : Shape := ⟨2, ![3072, 4096]⟩
abbrev S3072 : Shape := ⟨1, ![3072]⟩
abbrev S4096x3072 : Shape := ⟨2, ![4096, 3072]⟩
abbrev S8192x3072 : Shape := ⟨2, ![8192, 3072]⟩
abbrev S1x3072 : Shape := ⟨2, ![1, 3072]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S1024x4096, .f32⟩
  | .hbm, ⟨4, _⟩ => ⟨S1024, .f32⟩
  | .hbm, ⟨5, _⟩ => ⟨S1024x4096, .f32⟩
  | .hbm, ⟨6, _⟩ => ⟨S1024, .f32⟩
  | .hbm, ⟨7, _⟩ => ⟨S1024x4096, .f32⟩
  | .hbm, ⟨8, _⟩ => ⟨S1024, .f32⟩
  | .hbm, ⟨9, _⟩ => ⟨S8192x4096, .f32⟩
  | .hbm, ⟨10, _⟩ => ⟨S3072x4096, .f32⟩
  | .hbm, ⟨11, _⟩ => ⟨S3072, .f32⟩
  | .hbm, ⟨12, _⟩ => ⟨S4096x3072, .f32⟩
  | .hbm, ⟨13, _⟩ => ⟨S8192x3072, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  concatenates_S8192x1024_S8192x2048_S8192x1024_S8192x4096_d1 : Shape.Concatenates [S8192x1024, S8192x2048, S8192x1024] S8192x4096 1
  concatenates_S1024x4096_S1024x4096_S1024x4096_S3072x4096_d0 : Shape.Concatenates [S1024x4096, S1024x4096, S1024x4096] S3072x4096 0
  concatenates_S1024_S1024_S1024_S3072_d0 : Shape.Concatenates [S1024, S1024, S1024] S3072 0
  transposes_S3072x4096_S4096x3072_1_0 : S3072x4096.Transposes [1, 0] S4096x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  bcast_S_S8192x1024 : S_.BroadcastsInDim S8192x1024 (![] : Fin 0 → Fin S8192x1024.rank)
  slices_S8192x3072_S8192x1024_0_1024 : S8192x3072.Slices ![0, 1024] S8192x1024
  slices_S8192x3072_S8192x1024_0_2048 : S8192x3072.Slices ![0, 2048] S8192x1024
  dot_S8192x4096_S4096x3072_S8192x3072_1_0_0_1_n_n_wf : DotDims.WF S8192x4096 S4096x3072 S8192x3072 [1] [0] [0] [1] [] []

variable [Facts₀]

def dot_S8192x4096_S4096x3072_S8192x3072_1_0_0_1_n_n : DotDims S8192x4096 S4096x3072 S8192x3072 where
  lhsContracting := [1]
  rhsContracting := [0]
  lhsNonContracting := [0]
  rhsNonContracting := [1]
  lhsBatch := []
  rhsBatch := []
  wf := dot_S8192x4096_S4096x3072_S8192x3072_1_0_0_1_n_n_wf

class Facts : Prop extends Facts₀ where

variable [Facts]
-- ==== Proof.Cell.lean ====
/-
  A gated cell over a batch of rows, as ONE function of its nine argument arrays.

  Row r of the input is the side-by-side join  u_r = [h_r | x_r | g_r]  (1024 + 2048 + 1024 = 4096 columns).
  Each of the three gates has a weight matrix W (1024 x 4096) and a bias b (1024), and its
  pre-activation at column j is the inner product of u_r with ROW j of W, plus b_j:
      p(r, j) = (sum over k < 4096 of u_r(k) * W(j, k)) + b_j.
  With s the logistic function, the mixing weight is  w = s(s(p_i) - s(p_f)),  and the cell's result is
      w * tanh(p_c) + (1 - w) * h(r, j).
  Everything is over the extended reals; no law beyond the definitions is used, so no entry needs to be finite.

  Also here: how a join of three column bands (or a stack of three row bands, or of three vectors) reads at an
  index, and that 1 / (1 + e^(-t)) written out with the float pattern of one is the logistic function.
-/
import Idealize.ShloMosaic.PureOps.Ideal
import Idealize.ShloMosaic.Lib.ValueIdx
import Idealize.ShloMosaic.Lib.Pipeline.Value
import Idealize.ShloMosaic.Lib.IdealHost

noncomputable section

namespace Cert.GatedCell

open Idealize.ShloMosaic Idealize.ShloMosaic.ValueIdx

/-! ## Three column bands side by side -/

/-- Row r of [a | b | c] (bands of 1024, 2048 and 1024 columns) at column k: the band that holds k, at k less the
    columns before that band. -/
def joined {R : Nat} (a : (⟨2, ![R, 1024]⟩ : Shape).Idx → EReal) (b : (⟨2, ![R, 2048]⟩ : Shape).Idx → EReal)
    (c : (⟨2, ![R, 1024]⟩ : Shape).Idx → EReal) (r : Fin R) (k : Fin 4096) : EReal :=
  if h1 : k.val < 1024 then a (ix2 r ⟨k.val, h1⟩)
  else if h2 : k.val < 3072 then b (ix2 r ⟨k.val - 1024, by omega⟩)
  else c (ix2 r ⟨k.val - 3072, by omega⟩)

/-- The concatenation of the three bands along the column axis, read at (r, k), is joined at (r, k). -/
theorem concatenate_bands {R : Nat} (a : (⟨2, ![R, 1024]⟩ : Shape).Idx → EReal) (b : (⟨2, ![R, 2048]⟩ : Shape).Idx → EReal)
    (c : (⟨2, ![R, 1024]⟩ : Shape).Idx → EReal)
    (hc : Shape.Concatenates [(⟨2, ![R, 1024]⟩ : Shape), ⟨2, ![R, 2048]⟩, ⟨2, ![R, 1024]⟩] ⟨2, ![R, 4096]⟩ 1)
    (J : (⟨2, ![R, 4096]⟩ : Shape).Idx) (r : Fin R) (k : Fin 4096) (h0 : (J 0).val = r.val) (h1 : (J 1).val = k.val) :
    concatenate (⟨2, ![R, 4096]⟩ : Shape) 1 [⟨⟨2, ![R, 1024]⟩, a⟩, ⟨⟨2, ![R, 2048]⟩, b⟩, ⟨⟨2, ![R, 1024]⟩, c⟩] hc J
      = joined a b c r k := by
  unfold joined
  split_ifs with hk1 hk2
  · refine concatenate_apply_piece (t := ⟨2, ![R, 4096]⟩) (1 : Fin 2) [⟨⟨2, ![R, 1024]⟩, a⟩, ⟨⟨2, ![R, 2048]⟩, b⟩, ⟨⟨2, ![R, 1024]⟩, c⟩] hc J 0 (by show (0 : Nat) < 3; omega) _ a rfl rfl 0 rfl (ix2 r ⟨k.val, hk1⟩) (fun d hd => ?_) ?_
    · match d with
      | ⟨0, _⟩ => exact h0.symm
      | ⟨1, _⟩ => exact absurd (Fin.ext rfl) hd
    · show 0 + k.val = (J 1).val
      omega
  · refine concatenate_apply_piece (t := ⟨2, ![R, 4096]⟩) (1 : Fin 2) [⟨⟨2, ![R, 1024]⟩, a⟩, ⟨⟨2, ![R, 2048]⟩, b⟩, ⟨⟨2, ![R, 1024]⟩, c⟩] hc J 1 (by show (1 : Nat) < 3; omega) _ b rfl rfl 1024 rfl (ix2 r ⟨k.val - 1024, by omega⟩) (fun d hd => ?_) ?_
    · match d with
      | ⟨0, _⟩ => exact h0.symm
      | ⟨1, _⟩ => exact absurd (Fin.ext rfl) hd
    · show 1024 + (k.val - 1024) = (J 1).val
      omega
  · refine concatenate_apply_piece (t := ⟨2, ![R, 4096]⟩) (1 : Fin 2) [⟨⟨2, ![R, 1024]⟩, a⟩, ⟨⟨2, ![R, 2048]⟩, b⟩, ⟨⟨2, ![R, 1024]⟩, c⟩] hc J 2 (by show (2 : Nat) < 3; omega) _ c rfl rfl 3072 rfl (ix2 r ⟨k.val - 3072, by omega⟩) (fun d hd => ?_) ?_
    · match d with
      | ⟨0, _⟩ => exact h0.symm
      | ⟨1, _⟩ => exact absurd (Fin.ext rfl) hd
    · show 3072 + (k.val - 3072) = (J 1).val
      have := k.isLt
      omega

/-! ## Three row bands stacked, and three vectors end to end -/

/-- Three 1024 x 4096 matrices stacked along the row axis: rows 0 .. 1023 of the stack are the first matrix, rows
    1024 .. 2047 the second, rows 2048 .. 3071 the third. -/
theorem stacked_rows (w0 w1 w2 : (⟨2, ![1024, 4096]⟩ : Shape).Idx → EReal)
    (hc : Shape.Concatenates [(⟨2, ![1024, 4096]⟩ : Shape), ⟨2, ![1024, 4096]⟩, ⟨2, ![1024, 4096]⟩] ⟨2, ![3072, 4096]⟩ 0)
    (J : (⟨2, ![3072, 4096]⟩ : Shape).Idx) (j : Fin 1024) (k : Fin 4096) (h1 : (J 1).val = k.val) :
    ((J 0).val = j.val →
      concatenate (⟨2, ![3072, 4096]⟩ : Shape) 0 [⟨⟨2, ![1024, 4096]⟩, w0⟩, ⟨⟨2, ![1024, 4096]⟩, w1⟩, ⟨⟨2, ![1024, 4096]⟩, w2⟩] hc J = w0 (ix2 j k))
    ∧ ((J 0).val = 1024 + j.val →
      concatenate (⟨2, ![3072, 4096]⟩ : Shape) 0 [⟨⟨2, ![1024, 4096]⟩, w0⟩, ⟨⟨2, ![1024, 4096]⟩, w1⟩, ⟨⟨2, ![1024, 4096]⟩, w2⟩] hc J = w1 (ix2 j k))
    ∧ ((J 0).val = 2048 + j.val →
      concatenate (⟨2, ![3072, 4096]⟩ : Shape) 0 [⟨⟨2, ![1024, 4096]⟩, w0⟩, ⟨⟨2, ![1024, 4096]⟩, w1⟩, ⟨⟨2, ![1024, 4096]⟩, w2⟩] hc J = w2 (ix2 j k)) := by
  have hd : ∀ d : Fin 2, d.cast rfl ≠ (0 : Fin 2) → ((ix2 j k : (⟨2, ![1024, 4096]⟩ : Shape).Idx) d).val = (J (d.cast rfl)).val :=
    fun d hd => by
      match d with
      | ⟨0, _⟩ => exact absurd (Fin.ext rfl) hd
      | ⟨1, _⟩ => exact h1.symm
  refine ⟨fun h0 => ?_, fun h0 => ?_, fun h0 => ?_⟩
  · exact concatenate_apply_piece (t := ⟨2, ![3072, 4096]⟩) (0 : Fin 2) [⟨⟨2, ![1024, 4096]⟩, w0⟩, ⟨⟨2, ![1024, 4096]⟩, w1⟩, ⟨⟨2, ![1024, 4096]⟩, w2⟩] hc J 0
      (by show (0 : Nat) < 3; omega) _ w0 rfl rfl 0 rfl (ix2 j k) hd (by show 0 + j.val = (J 0).val; omega)
  · exact concatenate_apply_piece (t := ⟨2, ![3072, 4096]⟩) (0 : Fin 2) [⟨⟨2, ![1024, 4096]⟩, w0⟩, ⟨⟨2, ![1024, 4096]⟩, w1⟩, ⟨⟨2, ![1024, 4096]⟩, w2⟩] hc J 1
      (by show (1 : Nat) < 3; omega) _ w1 rfl rfl 1024 rfl (ix2 j k) hd (by show 1024 + j.val = (J 0).val; omega)
  · exact concatenate_apply_piece (t := ⟨2, ![3072, 4096]⟩) (0 : Fin 2) [⟨⟨2, ![1024, 4096]⟩, w0⟩, ⟨⟨2, ![1024, 4096]⟩, w1⟩, ⟨⟨2, ![1024, 4096]⟩, w2⟩] hc J 2
      (by show (2 : Nat) < 3; omega) _ w2 rfl rfl 2048 rfl (ix2 j k) hd (by show 2048 + j.val = (J 0).val; omega)

/-- Three vectors of 1024 entries end to end: entries 0 .. 1023 are the first vector, 1024 .. 2047 the second,
    2048 .. 3071 the third. -/
theorem stacked_vectors (v0 v1 v2 : (⟨1, ![1024]⟩ : Shape).Idx → EReal)
    (hc : Shape.Concatenates [(⟨1, ![1024]⟩ : Shape), ⟨1, ![1024]⟩, ⟨1, ![1024]⟩] ⟨1, ![3072]⟩ 0)
    (J : (⟨1, ![3072]⟩ : Shape).Idx) (j : Fin 1024) :
    ((J 0).val = j.val →
      concatenate (⟨1, ![3072]⟩ : Shape) 0 [⟨⟨1, ![1024]⟩, v0⟩, ⟨⟨1, ![1024]⟩, v1⟩, ⟨⟨1, ![1024]⟩, v2⟩] hc J = v0 (ix1 j))
    ∧ ((J 0).val = 1024 + j.val →
      concatenate (⟨1, ![3072]⟩ : Shape) 0 [⟨⟨1, ![1024]⟩, v0⟩, ⟨⟨1, ![1024]⟩, v1⟩, ⟨⟨1, ![1024]⟩, v2⟩] hc J = v1 (ix1 j))
    ∧ ((J 0).val = 2048 + j.val →
      concatenate (⟨1, ![3072]⟩ : Shape) 0 [⟨⟨1, ![1024]⟩, v0⟩, ⟨⟨1, ![1024]⟩, v1⟩, ⟨⟨1, ![1024]⟩, v2⟩] hc J = v2 (ix1 j)) := by
  have hd : ∀ d : Fin 1, d.cast rfl ≠ (0 : Fin 1) → ((ix1 j : (⟨1, ![1024]⟩ : Shape).Idx) d).val = (J (d.cast rfl)).val :=
    fun d hd => by
      match d with
      | ⟨0, _⟩ => exact absurd (Fin.ext rfl) hd
  refine ⟨fun h0 => ?_, fun h0 => ?_, fun h0 => ?_⟩
  · exact concatenate_apply_piece (t := ⟨1, ![3072]⟩) (0 : Fin 1) [⟨⟨1, ![1024]⟩, v0⟩, ⟨⟨1, ![1024]⟩, v1⟩, ⟨⟨1, ![1024]⟩, v2⟩] hc J 0
      (by show (0 : Nat) < 3; omega) _ v0 rfl rfl 0 rfl (ix1 j) hd (by show 0 + j.val = (J 0).val; omega)
  · exact concatenate_apply_piece (t := ⟨1, ![3072]⟩) (0 : Fin 1) [⟨⟨1, ![1024]⟩, v0⟩, ⟨⟨1, ![1024]⟩, v1⟩, ⟨⟨1, ![1024]⟩, v2⟩] hc J 1
      (by show (1 : Nat) < 3; omega) _ v1 rfl rfl 1024 rfl (ix1 j) hd (by show 1024 + j.val = (J 0).val; omega)
  · exact concatenate_apply_piece (t := ⟨1, ![3072]⟩) (0 : Fin 1) [⟨⟨1, ![1024]⟩, v0⟩, ⟨⟨1, ![1024]⟩, v1⟩, ⟨⟨1, ![1024]⟩, v2⟩] hc J 2
      (by show (2 : Nat) < 3; omega) _ v2 rfl rfl 2048 rfl (ix1 j) hd (by show 2048 + j.val = (J 0).val; omega)

/-! ## The cell -/

/-- A gate's pre-activation at column j: the joined row against row j of the weights, plus the bias. -/
def preact (row : Fin 4096 → EReal) (W : (⟨2, ![1024, 4096]⟩ : Shape).Idx → EReal) (b : (⟨1, ![1024]⟩ : Shape).Idx → EReal)
    (j : Fin 1024) : EReal :=
  (∑ k : Fin 4096, row k * W (ix2 j k)) + b (ix1 j)

/-- The mixing weight s(s(p) - s(q)). -/
def weight (p q : EReal) : EReal := Ideal.logistic (Ideal.logistic p - Ideal.logistic q)

/-- The convex mix of tanh of the candidate and the carried value; the one is the float pattern of 1.0. -/
def blend (pi pf pc hv : EReal) : EReal :=
  weight pi pf * Ideal.tanh pc + (Ideal.ofBits .f32 0x3F800000#32 - weight pi pf) * hv

/-- The cell's result at row r, column j. -/
def cellAt (h : (⟨2, ![8192, 1024]⟩ : Shape).Idx → EReal) (x : (⟨2, ![8192, 2048]⟩ : Shape).Idx → EReal)
    (g : (⟨2, ![8192, 1024]⟩ : Shape).Idx → EReal)
    (Wi : (⟨2, ![1024, 4096]⟩ : Shape).Idx → EReal) (bi : (⟨1, ![1024]⟩ : Shape).Idx → EReal)
    (Wf : (⟨2, ![1024, 4096]⟩ : Shape).Idx → EReal) (bf : (⟨1, ![1024]⟩ : Shape).Idx → EReal)
    (Wc : (⟨2, ![1024, 4096]⟩ : Shape).Idx → EReal) (bc : (⟨1, ![1024]⟩ : Shape).Idx → EReal)
    (r : Fin 8192) (j : Fin 1024) : EReal :=
  blend (preact (joined h x g r) Wi bi j) (preact (joined h x g r) Wf bf j) (preact (joined h x g r) Wc bc j) (h (ix2 r j))

/-- The cell's result array. -/
def cell (h : (⟨2, ![8192, 1024]⟩ : Shape).Idx → EReal) (x : (⟨2, ![8192, 2048]⟩ : Shape).Idx → EReal)
    (g : (⟨2, ![8192, 1024]⟩ : Shape).Idx → EReal)
    (Wi : (⟨2, ![1024, 4096]⟩ : Shape).Idx → EReal) (bi : (⟨1, ![1024]⟩ : Shape).Idx → EReal)
    (Wf : (⟨2, ![1024, 4096]⟩ : Shape).Idx → EReal) (bf : (⟨1, ![1024]⟩ : Shape).Idx → EReal)
    (Wc : (⟨2, ![1024, 4096]⟩ : Shape).Idx → EReal) (bc : (⟨1, ![1024]⟩ : Shape).Idx → EReal) :
    (⟨2, ![8192, 1024]⟩ : Shape).Idx → EReal :=
  fun i => cellAt h x g Wi bi Wf bf Wc bc ⟨(i 0).val, (i 0).isLt⟩ ⟨(i 1).val, (i 1).isLt⟩

/-! ## The logistic function written out -/

/-- 1 / (1 + e^(-t)), each one written as the float pattern of 1.0, is the logistic function. -/
theorem logistic_spelled (t : EReal) :
    Ideal.div (Ideal.ofBits .f32 0x3F800000#32) (Ideal.ofBits .f32 0x3F800000#32 + Ideal.exp (-t)) = Ideal.logistic t := by
  rw [Ideal.ofBits_one_f32]
  rfl

end Cert.GatedCell

end
-- ==== Proof.BodyCell.lean ====
/-
  What the kernel's body computes from the blocks it loads, entry by entry.

  The body joins its three row blocks (256 rows each) into rows of 4096 columns, multiplies the joined block with each
  of the three 4096 x 1024 weight blocks into a zero accumulator, adds the bias row to every row, and mixes the three
  results pointwise with the first block. A product into a zero accumulator at (p, q) is the sum over k of the left
  operand at (p, k) times the right operand at (k, q); a change of float format is the identity on the extended
  reals. So at (p, q) the body's value is the mix of three sums  (sum over k of joined(p, k) * w(k, q)) + b(0, q).
-/
import proofs.«114356_j42460046688677_1_alg».proof.Proof.Gen.KernelIdeal.Skeleton
import proofs.«114356_j42460046688677_1_alg».proof.Proof.Cell
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Cert.GatedCell
open Idealize.ShloMosaic Idealize.ShloMosaic.TcCoe Idealize.ShloMosaic.ValueIdx

/-! ## The product's operand indices -/

theorem lhs_row (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_col (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_row (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_col (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The block product into a zero accumulator, at (p, q): the sum over the 4096 joined columns. -/
theorem product_at (l : FVec Ideal S256x4096 .bf16) (w : FVec Ideal S4096x1024 .bf16) (p : Fin 256) (q : Fin 1024) :
    matmul dot_S256x4096_S4096x1024_S256x1024_1_0_0_1_n_n none l w (constant S256x1024 .f32 0x00000000#32) (ix2 p q)
      = ∑ k : Fin 4096, l (ix2 p k) * w (ix2 k q) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k := funext fun a => Fin.ext (by
    match a with
    | ⟨0, _⟩ => exact lhs_row _ _
    | ⟨1, _⟩ => exact (lhs_col _ _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q := funext fun a => Fin.ext (by
    match a with
    | ⟨0, _⟩ => exact (rhs_row _ _).trans hk
    | ⟨1, _⟩ => exact rhs_col _ _)
  rw [el, er]

/-! ## One gate, then the body -/

/-- One gate's value before its squashing function, at (p, q): the joined row p against column q of the weight
    block, plus the bias row at q. -/
theorem gate_at (v0 : FVec Ideal S256x1024 .f32) (v1 : FVec Ideal S256x2048 .f32) (v2 : FVec Ideal S256x1024 .f32)
    (w : FVec Ideal S4096x1024 .bf16) (b : FVec Ideal S1x1024 .f32) (p : Fin 256) (q : Fin 1024) :
    addf (F := Ideal) (matmul dot_S256x4096_S4096x1024_S256x1024_1_0_0_1_n_n none
        (truncf .bf16 (concatenate S256x4096 1 [⟨S256x1024, v0⟩, ⟨S256x2048, v1⟩, ⟨S256x1024, v2⟩] concatenates_S256x1024_S256x2048_S256x1024_S256x4096_d1) bitsLt_bf16_f32)
        (shapeCast S4096x1024 w shapeCasts_S4096x1024_S4096x1024) (constant S256x1024 .f32 0x00000000#32))
      (broadcastTo S256x1024 (shapeCast S1x1024 b shapeCasts_S1x1024_S1x1024) broadcasts_S1x1024_S256x1024) (ix2 p q)
    = (∑ k : Fin 4096, joined v0 v1 v2 p k * w (ix2 k q)) + b (ix2 (0 : Fin 1) q) := by
  rw [shapeCast_self, shapeCast_self]
  show matmul (F := Ideal) dot_S256x4096_S4096x1024_S256x1024_1_0_0_1_n_n none _ w (constant S256x1024 .f32 0x00000000#32) (ix2 p q) + broadcastTo S256x1024 b broadcasts_S1x1024_S256x1024 (ix2 p q) = _
  rw [product_at, broadcastTo_1b_ab_apply b broadcasts_S1x1024_S256x1024 p q]
  congr 1
  refine Finset.sum_congr rfl fun k _ => ?_
  congr 1
  exact concatenate_bands (R := 256) v0 v1 v2 concatenates_S256x1024_S256x2048_S256x1024_S256x4096_d1 (ix2 p k) p k rfl rfl

/-- The body's value at (p, q). -/
theorem payload_at (v0 : FVec Ideal S256x1024 .f32) (v1 : FVec Ideal S256x2048 .f32) (v2 : FVec Ideal S256x1024 .f32)
    (v5 : FVec Ideal S4096x1024 .bf16) (v8 : FVec Ideal S1x1024 .f32) (v12 : FVec Ideal S4096x1024 .bf16) (v15 : FVec Ideal S1x1024 .f32)
    (v19 : FVec Ideal S4096x1024 .bf16) (v22 : FVec Ideal S1x1024 .f32) (p : Fin 256) (q : Fin 1024) :
    k0_pay1 (F := Ideal) v0 v1 v2 v5 v8 v12 v15 v19 v22 (ix2 p q)
      = blend ((∑ k : Fin 4096, joined v0 v1 v2 p k * v5 (ix2 k q)) + v8 (ix2 (0 : Fin 1) q))
          ((∑ k : Fin 4096, joined v0 v1 v2 p k * v12 (ix2 k q)) + v15 (ix2 (0 : Fin 1) q))
          ((∑ k : Fin 4096, joined v0 v1 v2 p k * v19 (ix2 k q)) + v22 (ix2 (0 : Fin 1) q))
          (v0 (ix2 p q)) := by
  rw [← gate_at v0 v1 v2 v5 v8 p q, ← gate_at v0 v1 v2 v12 v15 p q, ← gate_at v0 v1 v2 v19 v22 p q]
  rfl

end Cert.KernelIdeal.Body

end
-- ==== Proof.KernelCell.lean ====
/-
  From blocks to the whole array: the kernel's result array is the gated cell of its nine arguments.

  The grid has 32 points. At point t the body sees rows 256 t .. 256 t + 255 of h, x and g, the three weight matrices
  whole but transposed (prepared before the launch: entry (k, q) of a prepared matrix is entry (q, k) of the
  argument), and the three biases as one-row matrices (entry (0, q) is entry q of the argument). By the body's value
  at (p, q) (three joined-row sums plus bias, mixed), what point t writes back is rows 256 t .. 256 t + 255 of the
  cell. Row r of the result lies in the block of point r / 256, so the 32 blocks cover the array.
-/
import proofs.«114356_j42460046688677_1_alg».proof.Proof.Gen.KernelIdeal.Value
import proofs.«114356_j42460046688677_1_alg».proof.Proof.BodyCell
import Idealize.ShloMosaic.Lib.StableHlo.Run
import Idealize.ShloMosaic.Lib.ValueLayout

noncomputable section

namespace Cert.KernelIdeal.Blocks

open Cert.KernelIdeal Cert.KernelIdeal.Gen Cert.KernelIdeal.Value Cert.KernelIdeal.Body Cert.GatedCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Every grid point is below 32. -/
theorem point_lt (t : Fin cfg0.N) : t.val < 32 := by
  have h := t.isLt
  have hN : cfg0.N = 32 := N_0
  omega

/-- Row 256 t + p of an array of 8192 rows. -/
def rowOf (t : Fin cfg0.N) (p : Fin 256) : Fin 8192 := ⟨t.val * 256 + p.val, by have := point_lt t; have := p.isLt; omega⟩

/-- The block index of each window at each point: the row blocks move with the point, the prepared weights and biases
    stay at block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## The arrays prepared before the launch -/

/-- A prepared weight matrix is the argument transposed (the change of float format is the identity). -/
theorem prepared_weight (c : Dev nD) (k : Fin 4096) (q : Fin 1024) :
    ((V m c main_v1 : S4096x1024.Idx → EReal) (ix2 k q) = (m ((c : Thread nD τ).loc main_arg3) : S1024x4096.Idx → EReal) (ix2 q k))
    ∧ ((V m c main_v3 : S4096x1024.Idx → EReal) (ix2 k q) = (m ((c : Thread nD τ).loc main_arg5) : S1024x4096.Idx → EReal) (ix2 q k))
    ∧ ((V m c main_v5 : S4096x1024.Idx → EReal) (ix2 k q) = (m ((c : Thread nD τ).loc main_arg7) : S1024x4096.Idx → EReal) (ix2 q k)) := by
  have e1 : (V m c main_v1 : S4096x1024.Idx → EReal) = truncf (F := Ideal) .bf16 (transpose S4096x1024 [1, 0] (m ((c : Thread nD τ).loc main_arg3)) transposes_S1024x4096_S4096x1024_1_0) bitsLt_bf16_f32 := by
    dsimp only [V, hostOps0]; after_results
  have e3 : (V m c main_v3 : S4096x1024.Idx → EReal) = truncf (F := Ideal) .bf16 (transpose S4096x1024 [1, 0] (m ((c : Thread nD τ).loc main_arg5)) transposes_S1024x4096_S4096x1024_1_0) bitsLt_bf16_f32 := by
    dsimp only [V, hostOps0]; after_results
  have e5 : (V m c main_v5 : S4096x1024.Idx → EReal) = truncf (F := Ideal) .bf16 (transpose S4096x1024 [1, 0] (m ((c : Thread nD τ).loc main_arg7)) transposes_S1024x4096_S4096x1024_1_0) bitsLt_bf16_f32 := by
    dsimp only [V, hostOps0]; after_results
  rw [e1, e3, e5]
  exact ⟨transpose_ix2_apply _ _ k q, transpose_ix2_apply _ _ k q, transpose_ix2_apply _ _ k q⟩

/-- A prepared bias is the argument as a matrix of one row. -/
theorem prepared_bias (c : Dev nD) (q : Fin 1024) :
    ((V m c main_v6 : S1x1024.Idx → EReal) (ix2 (0 : Fin 1) q) = (m ((c : Thread nD τ).loc main_arg4) : S1024.Idx → EReal) (ix1 q))
    ∧ ((V m c main_v7 : S1x1024.Idx → EReal) (ix2 (0 : Fin 1) q) = (m ((c : Thread nD τ).loc main_arg6) : S1024.Idx → EReal) (ix1 q))
    ∧ ((V m c main_v8 : S1x1024.Idx → EReal) (ix2 (0 : Fin 1) q) = (m ((c : Thread nD τ).loc main_arg8) : S1024.Idx → EReal) (ix1 q)) := by
  have e6 : (V m c main_v6 : S1x1024.Idx → EReal) = shapeCast S1x1024 (m ((c : Thread nD τ).loc main_arg4)) shapeCasts_S1024_S1x1024 := by
    dsimp only [V, hostOps0]; after_results; rfl
  have e7 : (V m c main_v7 : S1x1024.Idx → EReal) = shapeCast S1x1024 (m ((c : Thread nD τ).loc main_arg6)) shapeCasts_S1024_S1x1024 := by
    dsimp only [V, hostOps0]; after_results; rfl
  have e8 : (V m c main_v8 : S1x1024.Idx → EReal) = shapeCast S1x1024 (m ((c : Thread nD τ).loc main_arg8)) shapeCasts_S1024_S1x1024 := by
    dsimp only [V, hostOps0]; after_results; rfl
  rw [e6, e7, e8]
  exact ⟨shapeCast_a_1a_apply _ _ 0 q, shapeCast_a_1a_apply _ _ 0 q, shapeCast_a_1a_apply _ _ 0 q⟩

/-! ## The blocks the body loads at point t -/

abbrev hblk (c : Dev nD) (t : Fin cfg0.N) : FVec Ideal S256x1024 .f32 := iblk m c 0 t
abbrev xblk (c : Dev nD) (t : Fin cfg0.N) : FVec Ideal S256x2048 .f32 := iblk m c 1 t
abbrev gblk (c : Dev nD) (t : Fin cfg0.N) : FVec Ideal S256x1024 .f32 := iblk m c 2 t
abbrev wiblk (c : Dev nD) (t : Fin cfg0.N) : FVec Ideal S4096x1024 .bf16 := iblk m c 3 t
abbrev wfblk (c : Dev nD) (t : Fin cfg0.N) : FVec Ideal S4096x1024 .bf16 := iblk m c 4 t
abbrev wcblk (c : Dev nD) (t : Fin cfg0.N) : FVec Ideal S4096x1024 .bf16 := iblk m c 5 t
abbrev biblk (c : Dev nD) (t : Fin cfg0.N) : FVec Ideal S1x1024 .f32 := iblk m c 6 t
abbrev bfblk (c : Dev nD) (t : Fin cfg0.N) : FVec Ideal S1x1024 .f32 := iblk m c 7 t
abbrev bcblk (c : Dev nD) (t : Fin cfg0.N) : FVec Ideal S1x1024 .f32 := iblk m c 8 t

/-- Row p of the h block at point t is row 256 t + p of h. -/
theorem hblk_at (c : Dev nD) (t : Fin cfg0.N) (p : Fin 256) (q : Fin 1024) :
    hblk m c t (ix2 p q) = (m ((c : Thread nD τ).loc main_arg0) : S8192x1024.Idx → EReal) (ix2 (rowOf t p) q) := by
  obtain ⟨⟨e0, e1⟩, -⟩ := block_index t
  show V m c main_arg0 (((cfg0.win 0).blk t).view.emb (ix2 p q)) = _
  rw [V_main_arg0]
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * q.val = q.val; rw [e1]; omega

/-- Row p of the x block at point t is row 256 t + p of x. -/
theorem xblk_at (c : Dev nD) (t : Fin cfg0.N) (p : Fin 256) (q : Fin 2048) :
    xblk m c t (ix2 p q) = (m ((c : Thread nD τ).loc main_arg1) : S8192x2048.Idx → EReal) (ix2 (rowOf t p) q) := by
  obtain ⟨-, ⟨e0, e1⟩, -⟩ := block_index t
  show V m c main_arg1 (((cfg0.win 1).blk t).view.emb (ix2 p q)) = _
  rw [V_main_arg1]
  refine congrArg _ (funext fun a => Fin.ext ?_)
  match a with
  | ⟨0, _⟩ => show win0_1.index t (0 : Fin 2) * 256 + 1 * p.val = t.val * 256 + p.val; rw [e0]; omega
  | ⟨1, _⟩ => show win0_1.index t (1 : Fin 2) * 2048 + 1 * q.val = q.val; rw [e1]; omega

/-- Row p of the g block at point t is row 256 t + p of g. -/
theorem gblk_at (c : Dev nD) (t : Fin cfg0.N) (p : Fin 256) (q : Fin 1024) :
    gblk m c t (ix2 p q) = (m ((c : Thread nD τ).loc main_arg2) : S8192x1024.Idx → EReal) (ix2 (rowOf t p) q) := by
  obtain ⟨-, -, ⟨e0, e1⟩, -⟩ := block_index t
  show V m c main_arg2 (((cfg0.win 2).blk t).view.emb (ix2 p q)) = _
  rw [V_main_arg2]
  refine congrArg _ (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1024 + 1 * q.val = q.val; rw [e1]; omega

/-- The joined row p of the three blocks at point t is the joined row 256 t + p of the three arguments. -/
theorem joined_blocks (c : Dev nD) (t : Fin cfg0.N) (p : Fin 256) (k : Fin 4096) :
    joined (hblk m c t) (xblk m c t) (gblk m c t) p k
      = joined (R := 8192) (m ((c : Thread nD τ).loc main_arg0)) (m ((c : Thread nD τ).loc main_arg1)) (m ((c : Thread nD τ).loc main_arg2)) (rowOf t p) k := by
  unfold joined
  split_ifs
  · exact hblk_at m c t p _
  · exact xblk_at m c t p _
  · exact gblk_at m c t p _

/-- Each weight block, at every point, is the whole prepared matrix: the argument transposed. -/
theorem wblk_at (c : Dev nD) (t : Fin cfg0.N) (k : Fin 4096) (q : Fin 1024) :
    (wiblk m c t (ix2 k q) = (m ((c : Thread nD τ).loc main_arg3) : S1024x4096.Idx → EReal) (ix2 q k))
    ∧ (wfblk m c t (ix2 k q) = (m ((c : Thread nD τ).loc main_arg5) : S1024x4096.Idx → EReal) (ix2 q k))
    ∧ (wcblk m c t (ix2 k q) = (m ((c : Thread nD τ).loc main_arg7) : S1024x4096.Idx → EReal) (ix2 q k)) := by
  obtain ⟨-, -, -, ⟨a0, a1⟩, ⟨b0, b1⟩, ⟨c0, c1⟩, -⟩ := block_index t
  obtain ⟨p1, p3, p5⟩ := prepared_weight m c k q
  refine ⟨?_, ?_, ?_⟩
  · show V m c main_v1 (((cfg0.win 3).blk t).view.emb (ix2 k q)) = _
    refine Eq.trans (congrArg _ (funext fun a => Fin.ext ?_)) p1
    match a with
    | ⟨0, _⟩ => show win0_3.index t (0 : Fin 2) * 4096 + 1 * k.val = k.val; rw [a0]; omega
    | ⟨1, _⟩ => show win0_3.index t (1 : Fin 2) * 1024 + 1 * q.val = q.val; rw [a1]; omega
  · show V m c main_v3 (((cfg0.win 4).blk t).view.emb (ix2 k q)) = _
    refine Eq.trans (congrArg _ (funext fun a => Fin.ext ?_)) p3
    match a with
    | ⟨0, _⟩ => show win0_4.index t (0 : Fin 2) * 4096 + 1 * k.val = k.val; rw [b0]; omega
    | ⟨1, _⟩ => show win0_4.index t (1 : Fin 2) * 1024 + 1 * q.val = q.val; rw [b1]; omega
  · show V m c main_v5 (((cfg0.win 5).blk t).view.emb (ix2 k q)) = _
    refine Eq.trans (congrArg _ (funext fun a => Fin.ext ?_)) p5
    match a with
    | ⟨0, _⟩ => show win0_5.index t (0 : Fin 2) * 4096 + 1 * k.val = k.val; rw [c0]; omega
    | ⟨1, _⟩ => show win0_5.index t (1 : Fin 2) * 1024 + 1 * q.val = q.val; rw [c1]; omega

/-- Each bias block, at every point, is the whole prepared one-row matrix: the argument. -/
theorem bblk_at (c : Dev nD) (t : Fin cfg0.N) (q : Fin 1024) :
    (biblk m c t (ix2 (0 : Fin 1) q) = (m ((c : Thread nD τ).loc main_arg4) : S1024.Idx → EReal) (ix1 q))
    ∧ (bfblk m c t (ix2 (0 : Fin 1) q) = (m ((c : Thread nD τ).loc main_arg6) : S1024.Idx → EReal) (ix1 q))
    ∧ (bcblk m c t (ix2 (0 : Fin 1) q) = (m ((c : Thread nD τ).loc main_arg8) : S1024.Idx → EReal) (ix1 q)) := by
  obtain ⟨-, -, -, -, -, -, ⟨a0, a1⟩, ⟨b0, b1⟩, ⟨c0, c1⟩, -⟩ := block_index t
  obtain ⟨p6, p7, p8⟩ := prepared_bias m c q
  refine ⟨?_, ?_, ?_⟩
  · show V m c main_v6 (((cfg0.win 6).blk t).view.emb (ix2 (0 : Fin 1) q)) = _
    refine Eq.trans (congrArg _ (funext fun a => Fin.ext ?_)) p6
    match a with
    | ⟨0, _⟩ => show win0_6.index t (0 : Fin 2) * 1 + 1 * 0 = 0; rw [a0]
    | ⟨1, _⟩ => show win0_6.index t (1 : Fin 2) * 1024 + 1 * q.val = q.val; rw [a1]; omega
  · show V m c main_v7 (((cfg0.win 7).blk t).view.emb (ix2 (0 : Fin 1) q)) = _
    refine Eq.trans (congrArg _ (funext fun a => Fin.ext ?_)) p7
    match a with
    | ⟨0, _⟩ => show win0_7.index t (0 : Fin 2) * 1 + 1 * 0 = 0; rw [b0]
    | ⟨1, _⟩ => show win0_7.index t (1 : Fin 2) * 1024 + 1 * q.val = q.val; rw [b1]; omega
  · show V m c main_v8 (((cfg0.win 8).blk t).view.emb (ix2 (0 : Fin 1) q)) = _
    refine Eq.trans (congrArg _ (funext fun a => Fin.ext ?_)) p8
    match a with
    | ⟨0, _⟩ => show win0_8.index t (0 : Fin 2) * 1 + 1 * 0 = 0; rw [c0]
    | ⟨1, _⟩ => show win0_8.index t (1 : Fin 2) * 1024 + 1 * q.val = q.val; rw [c1]; omega

/-! ## What a point writes back, and the whole array -/

/-- A sum over the joined block row against a column of a weight block is the sum over the joined argument row against a
    row of the weight argument. -/
theorem gate_sum (c : Dev nD) (t : Fin cfg0.N) (p : Fin 256) (q : Fin 1024) (w : FVec Ideal S4096x1024 .bf16) (W : S1024x4096.Idx → EReal)
    (hw : ∀ k : Fin 4096, w (ix2 k q) = W (ix2 q k)) :
    (∑ k : Fin 4096, joined (hblk m c t) (xblk m c t) (gblk m c t) p k * w (ix2 k q))
      = ∑ k : Fin 4096, joined (R := 8192) (m ((c : Thread nD τ).loc main_arg0)) (m ((c : Thread nD τ).loc main_arg1)) (m ((c : Thread nD τ).loc main_arg2)) (rowOf t p) k * W (ix2 q k) :=
  Finset.sum_congr rfl fun k _ => by rw [joined_blocks, hw k]

/-- The body's value at (p, q) of point t is the cell at row 256 t + p, column q. -/
theorem body_is_cell (c : Dev nD) (t : Fin cfg0.N) (p : Fin 256) (q : Fin 1024) :
    k0_pay1 (F := Ideal) (hblk m c t) (xblk m c t) (gblk m c t) (wiblk m c t) (biblk m c t) (wfblk m c t) (bfblk m c t) (wcblk m c t) (bcblk m c t) (ix2 p q)
      = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t p) q := by
  obtain ⟨b6, b7, b8⟩ := bblk_at m c t q
  refine (payload_at (hblk m c t) (xblk m c t) (gblk m c t) (wiblk m c t) (biblk m c t) (wfblk m c t) (bfblk m c t) (wcblk m c t) (bcblk m c t) p q).trans ?_
  rw [gate_sum m c t p q (wiblk m c t) _ (fun k => (wblk_at m c t k q).1),
    gate_sum m c t p q (wfblk m c t) _ (fun k => (wblk_at m c t k q).2.1),
    gate_sum m c t p q (wcblk m c t) _ (fun k => (wblk_at m c t k q).2.2), b6, b7, b8, hblk_at m c t p q]
  rfl

/-- The same at any index of the block. -/
theorem body_is_cell_idx (c : Dev nD) (t : Fin cfg0.N) (y : S256x1024.Idx) :
    k0_pay1 (F := Ideal) (hblk m c t) (xblk m c t) (gblk m c t) (wiblk m c t) (biblk m c t) (wfblk m c t) (bfblk m c t) (wcblk m c t) (bcblk m c t) y
      = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t ⟨(y 0).val, (y 0).isLt⟩) ⟨(y 1).val, (y 1).isLt⟩ := by
  obtain ⟨p, q, rfl⟩ : ∃ (p : Fin 256) (q : Fin 1024), y = ix2 p q := ⟨y 0, y 1, eq_ix2 y⟩
  exact body_is_cell m c t p q

/-- What point t writes back is block t of the cell. -/
theorem flushed_is_cell (c : Dev nD) (t : Fin cfg0.N) :
    (dats m 0 c).flushed 9 t = ((cfg0.win 9).blk t).view.read (Elt Ideal) (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨-, -, -, -, -, -, -, -, -, ⟨e0, e1⟩⟩ := block_index t
  rw [flushed9]
  unfold out0_9
  rw [View.canon_unit_zero origin]
  simp only [View.ld_unit_zero (S := S256x1024) origin, View.ld_unit_zero (S := S256x2048) origin,
    View.ld_unit_zero (S := S4096x1024) origin, View.ld_unit_zero (S := S1x1024) origin]
  funext y
  show k0_pay1 (F := Ideal) (hblk m c t) (xblk m c t) (gblk m c t) (wiblk m c t) (biblk m c t) (wfblk m c t) (bfblk m c t) (wcblk m c t) (bcblk m c t) y
    = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y)
  refine (body_is_cell_idx m c t y).trans ?_
  have r0 : rowOf t ⟨(y 0).val, (y 0).isLt⟩
      = (⟨((((cfg0.win 9).blk t).view.emb y) 0).val, ((((cfg0.win 9).blk t).view.emb y) 0).isLt⟩ : Fin 8192) := Fin.ext (by
    show t.val * 256 + (y 0).val = win0_9.index t (0 : Fin 2) * 256 + 1 * (y 0).val
    rw [e0]; omega)
  have r1 : (⟨(y 1).val, (y 1).isLt⟩ : Fin 1024)
      = (⟨((((cfg0.win 9).blk t).view.emb y) 1).val, ((((cfg0.win 9).blk t).view.emb y) 1).isLt⟩ : Fin 1024) := Fin.ext (by
    show (y 1).val = win0_9.index t (1 : Fin 2) * 1024 + 1 * (y 1).val
    rw [e1]; omega)
  rw [r0, r1]
  rfl

/-- An index lies in point t's block exactly when its row is one of the block's 256 rows (the block has every column). -/
theorem mem_block (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v9).slice (win0_9.rect t)).set ↔ _
  rw [View.set_slice_whole, Rect.mem_set_unit]
  exact Iff.rfl

/-- The result array after the run is the cell. -/
theorem result_array (c : Dev nD) : (dats m 0 c).arrAt 9 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_is_cell m c t) fun i => by
    have hr : (i 0).val < 8192 := (i 0).isLt
    have hq : (i 1).val < 1024 := (i 1).isLt
    have hN : cfg0.N = 32 := N_0
    let t : Fin cfg0.N := ⟨(i 0).val / 256, by omega⟩
    obtain ⟨-, -, -, -, -, -, -, -, -, ⟨e0, e1⟩⟩ := block_index t
    refine ⟨t, flush0_9 t, (mem_block t i).mpr fun a => ?_⟩
    match a with
    | ⟨0, _⟩ =>
      show win0_9.index t (0 : Fin 2) * 256 ≤ (i 0).val ∧ (i 0).val < win0_9.index t (0 : Fin 2) * 256 + 256
      rw [e0]
      show (i 0).val / 256 * 256 ≤ (i 0).val ∧ (i 0).val < (i 0).val / 256 * 256 + 256
      omega
    | ⟨1, _⟩ =>
      show win0_9.index t (1 : Fin 2) * 1024 ≤ (i 1).val ∧ (i 1).val < win0_9.index t (1 : Fin 2) * 1024 + 1024
      rw [e1]
      omega

/-- The kernel's run: the result array ends at the cell of the arguments, the arguments unchanged. -/
theorem run : θ_run defs (onTc (τ := τ) (main (F := Ideal))) ⟨m, fun _ => 0, ρ⟩ fun r => ∀ c : Dev nD,
      r.2.mem ((c : Thread nD τ).loc main_v9) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_array m c), (h c).2⟩) (run_blocks m ρ)

end Cert.KernelIdeal.Blocks

end
-- ==== Proof.RefCell.lean ====
/-
  The reference program computes the gated cell.

  The reference joins the three inputs into rows of 4096 columns, stacks the three weight matrices into one of 3072
  rows and the three biases into one vector of 3072 entries, and forms ONE product of the joined rows with the
  transposed stack, plus the stacked bias. Column n * 1024 + j of that product is the inner product of the joined
  row with row j of the n-th weight matrix, plus entry j of the n-th bias: the n-th gate's pre-activation at column j.
  The three column bands are then cut out, the logistic function is written as 1 / (1 + e^(-t)), and the bands are
  mixed pointwise: that is the cell.
-/
import proofs.«114356_j42460046688677_1_alg».proof.Proof.Gen.ReferenceIdeal.Read
import proofs.«114356_j42460046688677_1_alg».proof.Proof.Cell

noncomputable section

namespace Cert.ReferenceIdeal.IsCell

open Cert.ReferenceIdeal Cert.ReferenceIdeal.Gen Cert.ReferenceIdeal.Read Cert.GatedCell
open Idealize.ShloMosaic Idealize.ShloMosaic.TcCoe Idealize.ShloMosaic.ValueIdx

/-- One entry of the fused product plus bias, at row r and a column J₁ in the first, second or third band of 1024
    columns, is that band's gate's pre-activation. -/
theorem fused_gates (x0 : (⟨S8192x1024, .f32⟩ : BufTy).Contents (Elt Ideal)) (x1 : (⟨S8192x2048, .f32⟩ : BufTy).Contents (Elt Ideal)) (x2 : (⟨S8192x1024, .f32⟩ : BufTy).Contents (Elt Ideal)) (x3 : (⟨S1024x4096, .f32⟩ : BufTy).Contents (Elt Ideal)) (x4 : (⟨S1024, .f32⟩ : BufTy).Contents (Elt Ideal)) (x5 : (⟨S1024x4096, .f32⟩ : BufTy).Contents (Elt Ideal)) (x6 : (⟨S1024, .f32⟩ : BufTy).Contents (Elt Ideal)) (x7 : (⟨S1024x4096, .f32⟩ : BufTy).Contents (Elt Ideal)) (x8 : (⟨S1024, .f32⟩ : BufTy).Contents (Elt Ideal))
    (J : S8192x3072.Idx) (r : Fin 8192) (j : Fin 1024) (h0 : (J 0).val = r.val) :
    ((J 1).val = j.val → val_main_v7 (F := Ideal) x0 x1 x2 x3 x4 x5 x6 x7 x8 J = preact (joined x0 x1 x2 r) x3 x4 j)
    ∧ ((J 1).val = 1024 + j.val → val_main_v7 (F := Ideal) x0 x1 x2 x3 x4 x5 x6 x7 x8 J = preact (joined x0 x1 x2 r) x5 x6 j)
    ∧ ((J 1).val = 2048 + j.val → val_main_v7 (F := Ideal) x0 x1 x2 x3 x4 x5 x6 x7 x8 J = preact (joined x0 x1 x2 r) x7 x8 j) := by
  have key : ∀ (W : (⟨2, ![1024, 4096]⟩ : Shape).Idx → EReal) (b : (⟨1, ![1024]⟩ : Shape).Idx → EReal),
      (∀ k : Fin 4096, val_main_v1 (F := Ideal) x3 x5 x7 (idx_main_v3 (ridx_main_v4 J k)) = W (ix2 j k)) →
      val_main_v2 (F := Ideal) x4 x6 x8 (idx_main_v5 (idx_main_v6 J)) = b (ix1 j) →
      val_main_v7 (F := Ideal) x0 x1 x2 x3 x4 x5 x6 x7 x8 J = preact (joined x0 x1 x2 r) W b j := by
    intro W b hW hb
    rw [val_main_v7_apply, val_main_v4_apply, val_main_v6_apply, val_main_v5_apply, hb]
    unfold preact
    show _ + _ = _ + _
    congr 1
    refine Finset.sum_congr rfl fun k _ => ?_
    rw [val_main_v3_apply, hW k]
    congr 1
    unfold val_main_v0
    exact concatenate_bands (R := 8192) x0 x1 x2 _ (lidx_main_v4 J k) r k h0 rfl
  refine ⟨fun h1 => key x3 x4 (fun k => ?_) ?_, fun h1 => key x5 x6 (fun k => ?_) ?_, fun h1 => key x7 x8 (fun k => ?_) ?_⟩
  · unfold val_main_v1
    exact (stacked_rows x3 x5 x7 _ (idx_main_v3 (ridx_main_v4 J k)) j k rfl).1 h1
  · unfold val_main_v2
    exact (stacked_vectors x4 x6 x8 _ (idx_main_v5 (idx_main_v6 J)) j).1 h1
  · unfold val_main_v1
    exact (stacked_rows x3 x5 x7 _ (idx_main_v3 (ridx_main_v4 J k)) j k rfl).2.1 h1
  · unfold val_main_v2
    exact (stacked_vectors x4 x6 x8 _ (idx_main_v5 (idx_main_v6 J)) j).2.1 h1
  · unfold val_main_v1
    exact (stacked_rows x3 x5 x7 _ (idx_main_v3 (ridx_main_v4 J k)) j k rfl).2.2 h1
  · unfold val_main_v2
    exact (stacked_vectors x4 x6 x8 _ (idx_main_v5 (idx_main_v6 J)) j).2.2 h1

/-- The reference's result, as a function of its nine arguments, is the cell. -/
theorem result_is_cell (x0 : (⟨S8192x1024, .f32⟩ : BufTy).Contents (Elt Ideal)) (x1 : (⟨S8192x2048, .f32⟩ : BufTy).Contents (Elt Ideal)) (x2 : (⟨S8192x1024, .f32⟩ : BufTy).Contents (Elt Ideal)) (x3 : (⟨S1024x4096, .f32⟩ : BufTy).Contents (Elt Ideal)) (x4 : (⟨S1024, .f32⟩ : BufTy).Contents (Elt Ideal)) (x5 : (⟨S1024x4096, .f32⟩ : BufTy).Contents (Elt Ideal)) (x6 : (⟨S1024, .f32⟩ : BufTy).Contents (Elt Ideal)) (x7 : (⟨S1024x4096, .f32⟩ : BufTy).Contents (Elt Ideal)) (x8 : (⟨S1024, .f32⟩ : BufTy).Contents (Elt Ideal)) :
    val_main_v35 (F := Ideal) x0 x1 x2 x3 x4 x5 x6 x7 x8 = cell x0 x1 x2 x3 x4 x5 x6 x7 x8 := by
  funext i
  obtain ⟨gi, -, -⟩ := fused_gates x0 x1 x2 x3 x4 x5 x6 x7 x8 (idx_main_v8 i) ⟨(i 0).val, (i 0).isLt⟩ ⟨(i 1).val, (i 1).isLt⟩ rfl
  obtain ⟨-, gf, -⟩ := fused_gates x0 x1 x2 x3 x4 x5 x6 x7 x8 (idx_main_v15 i) ⟨(i 0).val, (i 0).isLt⟩ ⟨(i 1).val, (i 1).isLt⟩ rfl
  obtain ⟨-, -, gc⟩ := fused_gates x0 x1 x2 x3 x4 x5 x6 x7 x8 (idx_main_v22 i) ⟨(i 0).val, (i 0).isLt⟩ ⟨(i 1).val, (i 1).isLt⟩ rfl
  simp only [val_main_v35_apply, val_main_v31_apply, val_main_v34_apply, val_main_v33_apply, val_main_v32_apply, val_main_v30_apply, val_main_v29_apply, val_main_v28_apply, val_main_v27_apply, val_main_v26_apply, val_main_v25_apply, val_main_v24_apply, val_main_v14_apply, val_main_v13_apply, val_main_v12_apply, val_main_v11_apply, val_main_v10_apply, val_main_v9_apply, val_main_v8_apply, val_main_v21_apply, val_main_v20_apply, val_main_v19_apply, val_main_v18_apply, val_main_v17_apply, val_main_v16_apply, val_main_v15_apply, val_main_v23_apply, val_main_v22_apply,
    val_main_cst_apply, val_main_cst_0_apply, val_main_cst_1_apply, val_main_cst_2_apply, val_main_cst_3_apply, val_main_cst_4_apply, val_main_cst_5_apply]
  rw [gi rfl, gf rfl, gc rfl]
  simp only [Ideal.addf_def, Ideal.subf_def, Ideal.mulf_def, Ideal.hostDivf_def, Ideal.hostNegf_def, Ideal.negf_def,
    Ideal.hostUnary_exp_def, Ideal.hostUnary_tanh_def, Ideal.ofBits_def, logistic_spelled]
  have hi : (ix2 (⟨(i 0).val, (i 0).isLt⟩ : Fin 8192) (⟨(i 1).val, (i 1).isLt⟩ : Fin 1024) : (⟨2, ![8192, 1024]⟩ : Shape).Idx) = i :=
    funext fun d => Fin.ext (by match d with | ⟨0, _⟩ => rfl | ⟨1, _⟩ => rfl)
  unfold cell cellAt blend weight
  rw [hi]

end Cert.ReferenceIdeal.IsCell

end
-- ==== Proof.lean ====
/-
  The kernel and its reference compute one function: a gated cell over 8192 rows.

  With u_r = [h_r | x_r | g_r] the joined row (4096 columns) and, for each of the three gates, a weight matrix W
  (1024 x 4096) and a bias b, the gate's pre-activation is p(r, j) = (sum over k of u_r(k) * W(j, k)) + b_j; the result is
      w * tanh(p_c) + (1 - w) * h(r, j),   w = s(s(p_i) - s(p_f)),   s the logistic function.
  The kernel walks 32 blocks of 256 rows, with the weights transposed beforehand and three separate products per block;
  the reference forms one product with the three weight matrices stacked and cuts the result into three column bands,
  and writes s as 1 / (1 + e^(-t)). Over the extended reals a change of float format is the identity, both products
  are the same sums over the 4096 joined columns, and the two spellings of s agree, so both arrays are the cell of the
  arguments (Proof/KernelCell.lean, Proof/RefCell.lean); the arguments agree by hypothesis. No law that needs finite
  entries is used. The three frames are the generated runs; the idealization rewrote nothing, so preserving it is trivial.
-/
import proofs.«114356_j42460046688677_1_alg».proof.Defs
import proofs.«114356_j42460046688677_1_alg».proof.Proof.Gen.Kernel
import proofs.«114356_j42460046688677_1_alg».proof.Proof.Gen.Kernel.Skeleton
import proofs.«114356_j42460046688677_1_alg».proof.Proof.Gen.Kernel.Launch
import proofs.«114356_j42460046688677_1_alg».proof.Proof.Gen.Kernel.Points
import proofs.«114356_j42460046688677_1_alg».proof.Proof.Gen.Kernel.Frame
import proofs.«114356_j42460046688677_1_alg».proof.Proof.Gen.KernelIdeal
import proofs.«114356_j42460046688677_1_alg».proof.Proof.Gen.KernelIdeal.Skeleton
import proofs.«114356_j42460046688677_1_alg».proof.Proof.Gen.KernelIdeal.Launch
import proofs.«114356_j42460046688677_1_alg».proof.Proof.Gen.KernelIdeal.Points
import proofs.«114356_j42460046688677_1_alg».proof.Proof.Gen.KernelIdeal.Frame
import proofs.«114356_j42460046688677_1_alg».proof.Proof.Gen.ReferenceIdeal
import proofs.«114356_j42460046688677_1_alg».proof.Proof.Gen.Pre_finite_inputs
import proofs.«114356_j42460046688677_1_alg».proof.Proof.Gen.KernelIdeal.Value
import proofs.«114356_j42460046688677_1_alg».proof.Proof.Gen.ReferenceIdeal.Run
import proofs.«114356_j42460046688677_1_alg».proof.Proof.Gen.ReferenceIdeal.Read
import proofs.«114356_j42460046688677_1_alg».proof.Proof.KernelCell
import proofs.«114356_j42460046688677_1_alg».proof.Proof.RefCell
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the cell of their arguments, and the arguments agree. -/
theorem algebraic : Cert.algebraic_KernelIdeal_ReferenceIdeal := by
  intro m ρ m' ρ' _ hagree
  refine ⟨fun c => Cert.GatedCell.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v35_eq, Cert.ReferenceIdeal.IsCell.result_is_cell, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
